-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x128 .f32) (main_arg1 : IVec S2x1600000 32) (main_arg2 : FVec F S128x128 .f32) (main_arg3 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S5000x128 : Shape := ⟨2, ![5000, 128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S10000x128 : Shape := ⟨2, ![10000, 128]⟩
abbrev S10000x1 : Shape := ⟨2, ![10000, 1]⟩
abbrev S1x128 : Shape := ⟨2, ![1, 128]⟩

abbrev nBuf : Space → Nat
  | .hbm => 63
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000x128, .f32⟩
  | .hbm, ⟨5, _⟩ => ⟨S100000, .i32⟩
  | .hbm, ⟨6, _⟩ => ⟨S1x1600000, .i32⟩
  | .hbm, ⟨7, _⟩ => ⟨S1600000, .i32⟩
  | .hbm, ⟨8, _⟩ => ⟨S1700000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S_, .f32⟩
  | .hbm, ⟨13, _⟩ => ⟨S1700000, .f32⟩
  | .hbm, ⟨14, _⟩ => ⟨S_, .f32⟩
  | .hbm, ⟨15, _⟩ => ⟨S100000, .f32⟩
  | .hbm, ⟨16, _⟩ => ⟨S1700000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .i1⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S_, .f32⟩
  | .hbm, ⟨57, _⟩ => ⟨S100000x128, .f32⟩
  | .hbm, ⟨58, _⟩ => ⟨S1700000x1, .i32⟩
  | .hbm, ⟨59, _⟩ => ⟨S100000x128, .f32⟩
  | .hbm, ⟨60, _⟩ => ⟨S1x128, .f32⟩
  | .hbm, ⟨61, _⟩ => ⟨S100000x128, .f32⟩
  | .hbm, ⟨62, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S10000x128, .f32⟩
  | .local _ .vmem, ⟨6, _⟩ => ⟨S10000x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![170], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  shapeCasts_S1700000_S1700000x1 : S1700000.ShapeCasts S1700000x1
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S5000x128_S128x128_S5000x128_1_0_0_1_n_n_wf : DotDims.WF S5000x128 S128x128 S5000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S1700000x128.size a
  hwx1_0 : ∀ i : grid1.Coords, EltTy.bits .f32 = 32 ∨ (Rect.block (s := S1700000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S1700000x1.size a
  hwx1_1 : ∀ i : grid1.Coords, EltTy.bits .f32 = 32 ∨ (Rect.block (s := S1700000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S1700000x128.size a
  hwx1_2 : ∀ i : grid1.Coords, EltTy.bits .f32 = 32 ∨ (Rect.block (s := S1700000x128) S10000x128.size (cc1_transform_2 i) (hinb1_2 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Spec.lean ====
/-
  The two whole-array functions the kernel's regions compute, index by index on the extended reals.
  `rowsTimes x w` is the product of a [100000, 128] array with a [128, 128] array: entry (r, j) is the sum over k of
  x(r, k) · w(k, j). `scaleRows g col` multiplies row r of a [1700000, 128] array by the entry of row r of a
  [1700000, 1] column. No program is imported here: the shapes are spelt as literals.
-/
import Idealize.ShloMosaic.PureOps.Ideal
import Idealize.ShloMosaic.Lib.ValueIdx

noncomputable section

namespace Cert.Spec

open Idealize.ShloMosaic Idealize.ShloMosaic.ValueIdx
open scoped BigOperators

abbrev SX : Shape := ⟨2, ![100000, 128]⟩
abbrev SW : Shape := ⟨2, ![128, 128]⟩
abbrev SM : Shape := ⟨2, ![1700000, 128]⟩
abbrev SC : Shape := ⟨2, ![1700000, 1]⟩

/-- The row of an index of a [100000, 128] array, as a number below 100000. -/
abbrev rowX (i : SX.Idx) : Fin 100000 := ⟨(i 0).val, idx2_lt0 i⟩
/-- Its column, as a number below 128. -/
abbrev colX (i : SX.Idx) : Fin 128 := ⟨(i 1).val, idx2_lt1 i⟩
/-- The row of an index of a [1700000, 128] array, as a number below 1700000. -/
abbrev rowM (i : SM.Idx) : Fin 1700000 := ⟨(i 0).val, idx2_lt0 i⟩

/-- The matrix product: entry (r, j) is the sum over the 128 inner positions k of x(r, k) · w(k, j). -/
def rowsTimes (x : FVec Ideal SX .f32) (w : FVec Ideal SW .f32) : FVec Ideal SX .f32 :=
  fun i => ∑ k : Fin 128, x (ix2 (rowX i) k) * w (ix2 k (colX i))

/-- Every row scaled by its own factor: entry (r, j) is g(r, j) · col(r, 0). -/
def scaleRows (g : FVec Ideal SM .f32) (col : FVec Ideal SC .f32) : FVec Ideal SM .f32 :=
  fun i => g i * col (ix2 (rowM i) (0 : Fin 1))

theorem rowsTimes_apply (x : FVec Ideal SX .f32) (w : FVec Ideal SW .f32) (r : Fin 100000) (j : Fin 128) :
    rowsTimes x w (ix2 r j) = ∑ k : Fin 128, x (ix2 r k) * w (ix2 k j) := rfl

theorem scaleRows_apply (g : FVec Ideal SM .f32) (col : FVec Ideal SC .f32) (r : Fin 1700000) (j : Fin 128) :
    scaleRows g col (ix2 r j) = g (ix2 r j) * col (ix2 r (0 : Fin 1)) := rfl

end Cert.Spec

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Scale.lean ====
/-
  The second region's array. The region walks the [1700000, 128] array of gathered rows in 170 blocks of 10000 rows;
  at block t it loads rows 10000·t … 10000·t + 9999 of the gathered array and of the [1700000, 1] column of factors,
  multiplies each row by its own factor, and writes the block back to the same rows of the result. The blocks tile
  the array, so the result holds, at (r, j), the gathered entry (r, j) times the factor of row r: `Spec.scaleRows`.
-/
import proofs.«178489_j14061722927346_1_alg».proof.Proof.Gen.KernelIdeal.Frame
import proofs.«178489_j14061722927346_1_alg».proof.Proof.Spec
import proofs.«178489_j14061722927346_1_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Scale

open Cert.KernelIdeal Cert.KernelIdeal.Gen Idealize.ShloMosaic Idealize.ShloMosaic.TcCoe Idealize.SL.Sem
open Idealize.ShloMosaic.ValueIdx
open Idealize.ShloMosaic.Pipeline (Dat)
open Cert.Spec

variable (V : (c : Dev nD) → (b : Ref sig .tc) → Buf (Elt Ideal) ((c : Thread nD τ).loc b))

/-- The array of gathered rows and the column of factors as the region finds them, at their literal types. -/
abbrev garr (c : Dev nD) : FVec Ideal SM .f32 := V c main_v37
abbrev carr (c : Dev nD) : FVec Ideal SC .f32 := V c main_v38

theorem hz : (![0, 0] : Fin 2 → Nat) = fun _ => 0 := funext fun a => by fin_cases a <;> rfl

/-- The body's product at (p, q) of a block: the loaded entry times the factor of its row. The two reshapes to the
    same shape are identities, and the column broadcast along the lanes reads the column's entry of row p. -/
theorem pay_apply (x0 : Vec Ideal S10000x128 .f32) (x1 : Vec Ideal S10000x1 .f32) (p : Fin 10000) (q : Fin 128) :
    k1_pay1 x0 x1 (ix2 p q) = x0 (ix2 p q) * x1 (ix2 p (0 : Fin 1)) := by
  unfold k1_pay1
  rw [mulf_apply, shapeCast_self, shapeCast_self]
  exact congrArg (x0 (ix2 p q) * ·) (Cert.LibColumn.broadcastTo_a1_ab_apply x1 _ p q)

/-- The printed index maps, decided over the 170 points: every window is at block (t, 0). -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the scaled rows of the arrays the region finds. -/
theorem flushed_eq (c : Dev nD) (t : Fin cfg1.N) :
    (dat1 V c).flushed 2 t = ((cfg1.win 2).blk t).view.read (Elt Ideal) (scaleRows (V c main_v37) (V c main_v38)) := by
  show (cfg1.win 2).cut (grid1.coords t) ((dat1 V c).after 2 t) = _
  rw [after1_2]
  unfold out1_2
  rw [View.canon_unit_zero hz]
  simp only [View.ld_unit_zero (S := S10000x128) hz, View.ld_unit_zero (S := S10000x1) hz]
  obtain ⟨e0, e1, e2, e3, e4, e5⟩ := idx_facts t
  funext j
  obtain ⟨p, q, rfl⟩ : ∃ (p : Fin 10000) (q : Fin 128), j = ix2 p q := ⟨j 0, j 1, eq_ix2 j⟩
  show k1_pay1 (iblk1 V c 0 t) (iblk1 V c 1 t) (ix2 p q) = scaleRows (V c main_v37) (V c main_v38) (((cfg1.win 2).blk t).view.emb (ix2 p q))
  rw [pay_apply]
  have h0 : ((cfg1.win 0).blk t).view.emb (ix2 p q) = ((cfg1.win 2).blk t).view.emb (ix2 p q) := by
    funext a; apply Fin.ext
    match a with
    | ⟨0, _⟩ => show win1_0.index t (0 : Fin 2) * 10000 + 1 * p.val = win1_2.index t (0 : Fin 2) * 10000 + 1 * p.val; omega
    | ⟨1, _⟩ => show win1_0.index t (1 : Fin 2) * 128 + 1 * q.val = win1_2.index t (1 : Fin 2) * 128 + 1 * q.val; omega
  have h1 : ((cfg1.win 1).blk t).view.emb (ix2 p (0 : Fin 1)) = ix2 (rowM (((cfg1.win 2).blk t).view.emb (ix2 p q))) (0 : Fin 1) := by
    funext a; apply Fin.ext
    match a with
    | ⟨0, _⟩ => show win1_1.index t (0 : Fin 2) * 10000 + 1 * p.val = win1_2.index t (0 : Fin 2) * 10000 + 1 * p.val; omega
    | ⟨1, _⟩ => show win1_1.index t (1 : Fin 2) * 1 + 1 * 0 = 0; omega
  show garr V c (((cfg1.win 0).blk t).view.emb (ix2 p q)) * carr V c (((cfg1.win 1).blk t).view.emb (ix2 p (0 : Fin 1))) = _
  rw [h0, h1]
  rfl

/-- An index of the array is in point t's block iff each coordinate is in the block's range on its axis. -/
theorem mem_blk (t : Fin cfg1.N) (i : S1700000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v39).slice (win1_2.rect t)).set ↔ _
  rw [View.set_slice_whole, Rect.mem_set_unit]
  exact Iff.rfl

/-- Every one of the 170 row blocks is some point's. -/
theorem idx_onto : ∀ q : Fin 170, ∃ t : Fin cfg1.N, win1_2.index t (0 : Fin 2) = q.val ∧ win1_2.index t (1 : Fin 2) = 0 :=
  (by decide +kernel : ∀ q : Fin 170, ∃ t : Fin grid1.N, win1_2.index t (0 : Fin 2) = q.val ∧ win1_2.index t (1 : Fin 2) = 0)

/-- The blocks tile the array: row r lies in block r / 10000. -/
theorem cover (i : S1700000x128.Idx) : ∃ t : Fin cfg1.N, (cfg1.win 2).flush t = true ∧ i ∈ ((cfg1.win 2).blk t).view.set := by
  have hi0 : (i 0).val < 1700000 := idx2_lt0 i
  have hi1 : (i 1).val < 128 := idx2_lt1 i
  obtain ⟨t, q0, q1⟩ := idx_onto ⟨(i 0).val / 10000, by omega⟩
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; simp only [] at q0; omega
  | ⟨1, _⟩ => show win1_2.index t (1 : Fin 2) * 128 ≤ (i 1).val ∧ (i 1).val < win1_2.index t (1 : Fin 2) * 128 + 128; omega

/-- The region's result array after its 170 points: the gathered rows, each scaled by its factor. -/
theorem arr (c : Dev nD) : (dat1 V c).arrAt 2 cfg1.N = scaleRows (V c main_v37) (V c main_v38) :=
  (dat1 V c).arrAt_eq_of_cover 2 (scaleRows (V c main_v37) (V c main_v38)) (fun t _ => flushed_eq V c t) cover

end Cert.KernelIdeal.Scale

end
-- ==== Proof.Matmul.lean ====
/-
  The first region's array. The region walks the [100000, 128] input in 20 blocks of 5000 rows; at block t it loads
  rows 5000·t … 5000·t + 4999 of the input and the whole [128, 128] weight array, narrows both to bf16 (the identity on
  the extended reals), multiplies them into a zero accumulator — entry (p, q) of the block is the sum over k of
  input(p, k) · weight(k, q) — and writes the block back to the same rows of the result. The blocks tile the result,
  so it holds the whole matrix product of the input and the weight array: `Spec.rowsTimes`.
-/
import proofs.«178489_j14061722927346_1_alg».proof.Proof.Gen.KernelIdeal.Frame
import proofs.«178489_j14061722927346_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Matmul

open Cert.KernelIdeal Cert.KernelIdeal.Gen Idealize.ShloMosaic Idealize.ShloMosaic.TcCoe Idealize.SL.Sem
open Idealize.ShloMosaic.ValueIdx
open Idealize.ShloMosaic.Pipeline (Dat)
open Cert.Spec
open scoped BigOperators

variable (V : (c : Dev nD) → (b : Ref sig .tc) → Buf (Elt Ideal) ((c : Thread nD τ).loc b))

/-- The input and the weight array as the region finds them, at their literal types. -/
abbrev xarr (c : Dev nD) : FVec Ideal SX .f32 := V c main_arg0
abbrev warr (c : Dev nD) : FVec Ideal SW .f32 := V c main_arg2

theorem hz : (![0, 0] : Fin 2 → Nat) = fun _ => 0 := funext fun a => by fin_cases a <;> rfl

/-! ## The product's operand positions: at result position (p, q) and inner position k the left operand is read at
    (p, k) and the right operand at (k, q) -/

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's product at (p, q) of a block: the sum over the 128 inner positions of the loaded input entry (p, k)
    times the loaded weight entry (k, q). Narrowing to bf16 changes nothing on the extended reals, and the accumulator
    the product is added to is zero. -/
theorem pay_apply (x0 : Vec Ideal S5000x128 .f32) (x1 : Vec Ideal S128x128 .f32) (p : Fin 5000) (q : Fin 128) :
    k0_pay1 x0 x1 (ix2 p q) = ∑ k : Fin 128, (x0 (ix2 p k) : EReal) * (x1 (ix2 k q) : EReal) := by
  unfold k0_pay1
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_0 _ _).trans hk
    | ⟨1, _⟩ => exact rhs_1 _ _)
  rw [el, er]
  rfl

/-- The printed index maps, decided over the 20 points: the input and the result are at block (t, 0), the weight
    array at its one block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the matrix product of the arrays the region finds. -/
theorem flushed_eq (c : Dev nD) (t : Fin cfg0.N) :
    (dat0 V c).flushed 2 t = ((cfg0.win 2).blk t).view.read (Elt Ideal) (rowsTimes (xarr V c) (warr V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x128) hz]
  obtain ⟨e0, e1, e2, e3, e4, e5⟩ := idx_facts t
  funext j
  obtain ⟨p, q, rfl⟩ : ∃ (p : Fin 5000) (q : Fin 128), j = ix2 p q := ⟨j 0, j 1, eq_ix2 j⟩
  show k0_pay1 (iblk0 V c 0 t) (iblk0 V c 1 t) (ix2 p q) = rowsTimes (xarr V c) (warr V c) (((cfg0.win 2).blk t).view.emb (ix2 p q))
  rw [pay_apply]
  show ∑ k : Fin 128, xarr V c (((cfg0.win 0).blk t).view.emb (ix2 p k)) * warr V c (((cfg0.win 1).blk t).view.emb (ix2 k q))
    = ∑ k : Fin 128, xarr V c (ix2 (rowX (((cfg0.win 2).blk t).view.emb (ix2 p q))) k) * warr V c (ix2 k (colX (((cfg0.win 2).blk t).view.emb (ix2 p q))))
  refine Finset.sum_congr rfl fun k _ => ?_
  have h0 : ((cfg0.win 0).blk t).view.emb (ix2 p k) = ix2 (rowX (((cfg0.win 2).blk t).view.emb (ix2 p q))) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  have h1 : ((cfg0.win 1).blk t).view.emb (ix2 k q) = ix2 k (colX (((cfg0.win 2).blk t).view.emb (ix2 p q))) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- An index of the array is in point t's block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v0).slice (win0_2.rect t)).set ↔ _
  rw [View.set_slice_whole, Rect.mem_set_unit]
  exact Iff.rfl

/-- Every one of the 20 row blocks is some point's. -/
theorem idx_onto : ∀ q : Fin 20, ∃ t : Fin cfg0.N, win0_2.index t (0 : Fin 2) = q.val ∧ win0_2.index t (1 : Fin 2) = 0 :=
  (by decide +kernel : ∀ q : Fin 20, ∃ t : Fin grid0.N, win0_2.index t (0 : Fin 2) = q.val ∧ win0_2.index t (1 : Fin 2) = 0)

/-- The blocks tile the array: row r lies in block r / 5000. -/
theorem cover (i : S100000x128.Idx) : ∃ t : Fin cfg0.N, (cfg0.win 2).flush t = true ∧ i ∈ ((cfg0.win 2).blk t).view.set := by
  have hi0 : (i 0).val < 100000 := idx2_lt0 i
  have hi1 : (i 1).val < 128 := idx2_lt1 i
  obtain ⟨t, q0, q1⟩ := idx_onto ⟨(i 0).val / 5000, by omega⟩
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; simp only [] at q0; omega
  | ⟨1, _⟩ => show win0_2.index t (1 : Fin 2) * 128 ≤ (i 1).val ∧ (i 1).val < win0_2.index t (1 : Fin 2) * 128 + 128; omega

/-- The region's result array after its 20 points: the matrix product of the input and the weight array. -/
theorem arr (c : Dev nD) : (dat0 V c).arrAt 2 cfg0.N = rowsTimes (xarr V c) (warr V c) :=
  (dat0 V c).arrAt_eq_of_cover 2 (rowsTimes (xarr V c) (warr V c)) (fun t _ => flushed_eq V c t) cover

end Cert.KernelIdeal.Matmul

end
-- ==== Proof.RefBridge.lean ====
/-
  The reference's two dense steps as the same whole-array functions. Its product of the [100000, 128] input with the
  [128, 128] weight array is, entry by entry, the sum over the 128 inner positions: `Spec.rowsTimes`. And its product
  of the gathered rows with the factors — the factor vector set up as a [1700000, 1] column and then spread along the
  128 lanes — multiplies every entry of row r by factor r, which is `Spec.scaleRows` of the vector reshaped to a column.
-/
import proofs.«178489_j14061722927346_1_alg».proof.Proof.Gen.ReferenceIdeal
import proofs.«178489_j14061722927346_1_alg».proof.Proof.Spec
import proofs.«178489_j14061722927346_1_alg».proof.Proof.LibColumn
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.ReferenceIdeal.Bridge

open Cert.ReferenceIdeal Idealize.ShloMosaic
open Idealize.ShloMosaic.ValueIdx
open Cert.Spec
open scoped BigOperators

/-! ## The product's operand positions: at result position (r, j) and inner position k the left operand is read at
    (r, k) and the right operand at (k, j) -/

theorem lhs_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's product of the two arrays, on the extended reals, is the matrix product entry by entry. -/
theorem dot_eq (x : FVec Ideal S100000x128 .f32) (w : FVec Ideal S128x128 .f32) :
    Host.dotGeneral dot_S100000x128_S128x128_S100000x128_1_0_0_1_n_n none x w = rowsTimes x w := by
  funext i
  obtain ⟨r, j, rfl⟩ : ∃ (r : Fin 100000) (j : Fin 128), i = ix2 r j := ⟨i 0, i 1, eq_ix2 i⟩
  rw [rowsTimes_apply]
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r j) ((contrEquiv1 dot_S100000x128_S128x128_S100000x128_1_0_0_1_n_n 128 rfl rfl).symm k) = ix2 r k := funext fun a => Fin.ext (by
    match a with
    | ⟨0, _⟩ => exact lhs_0 _ _
    | ⟨1, _⟩ => exact (lhs_1 _ _).trans hk)
  have er : dot_S100000x128_S128x128_S100000x128_1_0_0_1_n_n.rhsIdx (ix2 r j) ((contrEquiv1 dot_S100000x128_S128x128_S100000x128_1_0_0_1_n_n 128 rfl rfl).symm k) = ix2 k j := funext fun a => Fin.ext (by
    match a with
    | ⟨0, _⟩ => exact (rhs_0 _ _).trans hk
    | ⟨1, _⟩ => exact rhs_1 _ _)
  rw [el, er]

/-- Rows times factors: the factor vector set up as a column and spread along the lanes, multiplied into the rows, is
    every row scaled by its own factor — the same as scaling by the vector reshaped to a column. -/
theorem scale_eq (g : FVec Ideal S1700000x128 .f32) (n : FVec Ideal S1700000 .f32)
    (hb1 : S1700000.BroadcastsInDim S1700000x1 ![0]) (hb2 : S1700000x1.BroadcastsInDim S1700000x128 ![0, 1])
    (hs : S1700000.ShapeCasts S1700000x1) :
    mulf g (broadcastInDim S1700000x128 ![0, 1] hb2 (broadcastInDim S1700000x1 ![0] hb1 n))
      = scaleRows g (shapeCast S1700000x1 n hs) := by
  funext i
  obtain ⟨r, j, rfl⟩ : ∃ (r : Fin 1700000) (j : Fin 128), i = ix2 r j := ⟨i 0, i 1, eq_ix2 i⟩
  rw [scaleRows_apply, mulf_apply, Cert.LibColumn.shapeCast_a_a1_apply]
  refine congrArg (g (ix2 r j) * ·) ?_
  rw [broadcastInDim_apply ![0, 1] hb2 _ (ix2 r j) (ix2 r (0 : Fin 1)) (fun a => by
    match a with
    | ⟨0, _⟩ => rfl
    | ⟨1, _⟩ => rfl)]
  exact broadcastInDim_apply ![0] hb1 n (ix2 r (0 : Fin 1)) (ix1 r) (fun a => by
    match a with
    | ⟨0, _⟩ => rfl)

end Cert.ReferenceIdeal.Bridge

end
-- ==== Proof.Value.lean ====
/-
  The kernel's result is the reference's. Read from the end of @main backwards, the kernel's result buffer holds the
  bias added to the scatter-add, by destination, of the second region's array; that region finds the rows of the first
  region's array gathered by source and the column of factors; the factors are the host's products of the gathered
  inverse square roots of the degrees; the first region finds the launch arrays. Every one of those host operations is
  in the reference too, applied to the same index data, so once the two regions' arrays are known as functions of what
  they find — the whole matrix product, and the rows scaled by their factors — and the reference's own two dense steps
  are known to be the same two functions, the two composed terms are one term.

  The comparison of the two chains is made for an arbitrary family of float values with the two dense functions as
  parameters (nothing in the shared host operations depends on what a float is), and then read at the extended reals
  with the matrix product and the row scaling in their places.
-/
import proofs.«178489_j14061722927346_1_alg».proof.Proof.KRun
import proofs.«178489_j14061722927346_1_alg».proof.Proof.RefRun
import proofs.«178489_j14061722927346_1_alg».proof.Proof.Scale
import proofs.«178489_j14061722927346_1_alg».proof.Proof.Matmul
import proofs.«178489_j14061722927346_1_alg».proof.Proof.RefBridge

set_option maxRecDepth 16384

noncomputable section

namespace Cert.KernelIdeal.Value

open Cert.KernelIdeal Cert.KernelIdeal.Gen
open Idealize.ShloMosaic Idealize.ShloMosaic.TcCoe Idealize.SL.Sem Idealize.ShloMosaic.StableHlo

section AnyFloats

variable {F : FTy → Type} [FloatOps F]
variable (m : (ℓ : Loc nD τ sig) → Buf (Elt F) ℓ) (ρ : Dev nD → PrngReg)

/-! ## Buffers a region does not write keep their contents across it -/

theorem W5_v7 (c : Dev nD) : W5 m ρ c (Proc.devRef .tc main_v7) = W4 m ρ c (Proc.devRef .tc main_v7) := W5_of_ne m ρ c main_v7 (by decide)
theorem W5_arg3 (c : Dev nD) : W5 m ρ c (Proc.devRef .tc main_arg3) = W4 m ρ c (Proc.devRef .tc main_arg3) := W5_of_ne m ρ c main_arg3 (by decide)
theorem W1_arg1 (c : Dev nD) : W1 m ρ c (Proc.devRef .tc main_arg1) = m ((c : Thread nD τ).loc main_arg1) := W1_of_ne m ρ c main_arg1 (by decide)
theorem W1_arg3 (c : Dev nD) : W1 m ρ c (Proc.devRef .tc main_arg3) = m ((c : Thread nD τ).loc main_arg3) := W1_of_ne m ρ c main_arg3 (by decide)

set_option maxHeartbeats 4000000 in
/-- The two chains of host operations are one. `dotOp` stands for what the first region leaves (of the launch input
    and weight arrays) and `scaleOp` for what the second leaves (of the gathered rows and the column of factors it
    finds); the reference's whole product is `dotOp` and its broadcast multiplication is `scaleOp` of the factors
    reshaped to a column. Then the kernel's result buffer at the end of @main is the reference's composed term of
    arguments that agree. -/
theorem chain_eq (m' : (ℓ : Loc Cert.ReferenceIdeal.nD Cert.ReferenceIdeal.τ Cert.ReferenceIdeal.sig) → Buf (Elt F) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (dotOp : FVec F Cert.ReferenceIdeal.S100000x128 .f32 → FVec F Cert.ReferenceIdeal.S128x128 .f32 → FVec F Cert.ReferenceIdeal.S100000x128 .f32)
    (scaleOp : FVec F Cert.ReferenceIdeal.S1700000x128 .f32 → FVec F Cert.ReferenceIdeal.S1700000x1 .f32 → FVec F Cert.ReferenceIdeal.S1700000x128 .f32)
    (hdotK : W1 m ρ c (Proc.devRef .tc main_v0) = dotOp (m ((c.tc : Thread nD τ).loc main_arg0)) (m ((c.tc : Thread nD τ).loc main_arg2)))
    (hscaleK : W5 m ρ c (Proc.devRef .tc main_v39) = scaleOp (W4 m ρ c (Proc.devRef .tc main_v37)) (W4 m ρ c (Proc.devRef .tc main_v38)))
    (hdotR : ∀ (x : FVec F Cert.ReferenceIdeal.S100000x128 .f32) (w : FVec F Cert.ReferenceIdeal.S128x128 .f32),
      Host.dotGeneral Cert.ReferenceIdeal.dot_S100000x128_S128x128_S100000x128_1_0_0_1_n_n none x w = dotOp x w)
    (hscaleR : ∀ (g : FVec F Cert.ReferenceIdeal.S1700000x128 .f32) (n : FVec F Cert.ReferenceIdeal.S1700000 .f32)
      (hb1 : Cert.ReferenceIdeal.S1700000.BroadcastsInDim Cert.ReferenceIdeal.S1700000x1 ![0]) (hb2 : Cert.ReferenceIdeal.S1700000x1.BroadcastsInDim Cert.ReferenceIdeal.S1700000x128 ![0, 1])
      (hs : Cert.ReferenceIdeal.S1700000.ShapeCasts Cert.ReferenceIdeal.S1700000x1),
      mulf g (broadcastInDim Cert.ReferenceIdeal.S1700000x128 ![0, 1] hb2 (broadcastInDim Cert.ReferenceIdeal.S1700000x1 ![0] hb1 n)) = scaleOp g (shapeCast Cert.ReferenceIdeal.S1700000x1 n hs)) :
    W6 m ρ c (Proc.devRef .tc main_v45) = Cert.ReferenceIdeal.Value.res_main_v46 m' c := by
  -- the last stretch: the bias added to the scatter-add of the second region's array
  dsimp only [W6]
  after_results_simp
  rw [hscaleK, W5_v7, W5_arg3]
  -- the three stretches between the regions, down to what the first region leaves
  dsimp only [W4, W3, W2]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [hdotK, W1_arg1, W1_arg3]
  -- the reference's term, its arguments the kernel's, its two dense steps the two functions
  unfold Cert.ReferenceIdeal.Value.res_main_v46
  rw [h0, h1, h2, h3]
  rw [hdotR, hscaleR _ _ _ _ shapeCasts_S1700000_S1700000x1]
  rfl

end AnyFloats

/-! ## At the extended reals -/

variable (m : (ℓ : Loc nD τ sig) → Buf (Elt Ideal) ℓ) (ρ : Dev nD → PrngReg)

/-- What the first region leaves: the whole product of the launch input and weight arrays. -/
theorem W1_v0 (c : Dev nD) : W1 m ρ c (Proc.devRef .tc main_v0)
    = Cert.Spec.rowsTimes (m ((c : Thread nD τ).loc main_arg0)) (m ((c : Thread nD τ).loc main_arg2)) :=
  (W1_arr m ρ c 2).trans (Cert.KernelIdeal.Matmul.arr (V0 m ρ) c)

/-- What the second region leaves: the gathered rows it finds, each scaled by the factor it finds for that row. -/
theorem W5_v39 (c : Dev nD) : W5 m ρ c (Proc.devRef .tc main_v39)
    = Cert.Spec.scaleRows (W4 m ρ c (Proc.devRef .tc main_v37)) (W4 m ρ c (Proc.devRef .tc main_v38)) :=
  (W5_arr m ρ c 2).trans (Cert.KernelIdeal.Scale.arr (V4 m ρ) c)

/-- The kernel's result buffer at the end of @main is the reference's composed term of arguments that agree. -/
theorem value_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3)) :
    W6 m ρ c (Proc.devRef .tc main_v45) = Cert.ReferenceIdeal.Value.res_main_v46 m' c :=
  chain_eq m ρ m' c h0 h1 h2 h3 Cert.Spec.rowsTimes Cert.Spec.scaleRows (W1_v0 m ρ c) (W5_v39 m ρ c)
    Cert.ReferenceIdeal.Bridge.dot_eq Cert.ReferenceIdeal.Bridge.scale_eq

end Cert.KernelIdeal.Value

end
-- ==== Proof.lean ====
/-
  The certificate of a graph-convolution layer: out = A · (x · W) + b, where A scatters, for every edge and every
  self loop (src, dst), the row src of x · W scaled by 1/sqrt(deg src) · 1/sqrt(deg dst) into row dst.

  The kernel's program computes x · W in a first region (20 blocks of 5000 rows, each a [5000, 128] by [128, 128]
  product of the bf16-narrowed operands into a zero accumulator), gathers the rows by source on the host, scales each
  gathered row by its factor in a second region (170 blocks of 10000 rows), and scatter-adds by destination on the
  host before adding the bias. The reference does the same with one whole product and one broadcast multiplication
  in place of the two regions, its host operations otherwise the very same ones on the same index data.

  On the extended reals narrowing to bf16 is the identity, and a product into a zero accumulator is the plain sum over
  the inner axis, so the first region's array is the whole product (Proof/Matmul.lean), and the second region's array is
  the gathered rows each scaled by its factor (Proof/Scale.lean); the reference's two steps are the same two functions
  (Proof/RefBridge.lean). Everything around them — the degree count, the inverse square roots, the two gathers of
  factors, the row gather, the scatter-add, the bias — is one and the same chain of host operations applied to equal
  values (Proof/Value.lean). No law of arithmetic beyond that is used, so the inputs' finiteness is never opened.
  The two kernel frames are the generated ones; the reference's frame is its run with the result dropped.
-/
import proofs.«178489_j14061722927346_1_alg».proof.Defs
import proofs.«178489_j14061722927346_1_alg».proof.Proof.Gen.Kernel
import proofs.«178489_j14061722927346_1_alg».proof.Proof.Gen.Kernel.Skeleton
import proofs.«178489_j14061722927346_1_alg».proof.Proof.Gen.Kernel.Launch
import proofs.«178489_j14061722927346_1_alg».proof.Proof.Gen.Kernel.Points
import proofs.«178489_j14061722927346_1_alg».proof.Proof.Gen.Kernel.Frame
import proofs.«178489_j14061722927346_1_alg».proof.Proof.Gen.KernelIdeal
import proofs.«178489_j14061722927346_1_alg».proof.Proof.Gen.KernelIdeal.Skeleton
import proofs.«178489_j14061722927346_1_alg».proof.Proof.Gen.KernelIdeal.Launch
import proofs.«178489_j14061722927346_1_alg».proof.Proof.Gen.KernelIdeal.Points
import proofs.«178489_j14061722927346_1_alg».proof.Proof.Gen.KernelIdeal.Frame
import proofs.«178489_j14061722927346_1_alg».proof.Proof.Gen.ReferenceIdeal
import proofs.«178489_j14061722927346_1_alg».proof.Proof.Gen.Pre_finite_inputs
import proofs.«178489_j14061722927346_1_alg».proof.Proof.KRun
import proofs.«178489_j14061722927346_1_alg».proof.Proof.RefRun
import proofs.«178489_j14061722927346_1_alg».proof.Proof.Value
import Idealize.ShloMosaic.Adequacy
import Idealize.ShloMosaic.Init

noncomputable section

namespace Cert.Proof

open Idealize.ShloMosaic Idealize.SL.Sem

/-- The word-level kernel runs to the end without a fault and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run read back, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories that agree on the four arguments both programs end with the same [100000, 128] result: the
    reference's composed term, which the kernel's last boundary contents equal (`Value.value_eq`). -/
theorem algebraic : Cert.algebraic_KernelIdeal_ReferenceIdeal := by
  intro m ρ m' ρ' _ hagree
  refine ⟨fun c => Cert.ReferenceIdeal.Value.res_main_v46 m' c, ?_, Cert.ReferenceIdeal.Value.run (F := Ideal) m' ρ'⟩
  exact (θ_run Cert.KernelIdeal.defs _ _).mono
    (fun _ h c => ⟨(h c).1.trans (Cert.KernelIdeal.Value.value_eq m ρ m' c (hagree c).1 (hagree c).2.1 (hagree c).2.2.1 (hagree c).2.2.2), (h c).2⟩)
    (Cert.KernelIdeal.Named.run_named m ρ)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
